-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x50257 : Shape := ⟨3, ![16, 128, 50257]⟩
abbrev S50257x128 : Shape := ⟨2, ![50257, 128]⟩
abbrev S128 : Shape := ⟨1, ![128]⟩
abbrev S_ : Shape := ⟨0, ![]⟩

class Facts : Prop where
  bcast_S_S16x128x50257 : S_.BroadcastsInDim S16x128x50257 (![] : Fin 0 → Fin S16x128x50257.rank)
  reducesTo_S16x128x50257_S_d0_1_2 : S16x128x50257.ReducesTo [0, 1, 2] S_
  h_S_ : 0 < S_.numel
  bcast_S_S50257x128 : S_.BroadcastsInDim S50257x128 (![] : Fin 0 → Fin S50257x128.rank)
  reducesTo_S50257x128_S_d0_1 : S50257x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16x128x50257 .f32) (main_arg1 : FVec F S50257x128 .f32) (main_arg2 : FVec F S128 .f32) : IVec S_ 1 :=
  let main_v0 : FVec F S16x128x50257 .f32 := Host.absf main_arg0
  let main_cst : FVec F S_ .f32 := constant S_ .f32 0x7F800000#32
  let main_v1 : FVec F S16x128x50257 .f32 := broadcastInDim S16x128x50257 ![] bcast_S_S16x128x50257 main_cst
  let main_v2 : IVec S16x128x50257 1 := cmpf .olt main_v0 main_v1
  let main_c : IVec S_ 1 := constantI S_ 1 1#1
  let main_v3 : IVec S_ 1 := (fun x v => Host.reduce IntOp.andi x v reducesTo_S16x128x50257_S_d0_1_2 h_S_) main_v2 main_c
  let main_v4 : FVec F S50257x128 .f32 := Host.absf main_arg1
  let main_cst_0 : FVec F S_ .f32 := constant S_ .f32 0x7F800000#32
  let main_v5 : FVec F S50257x128 .f32 := broadcastInDim S50257x128 ![] bcast_S_S50257x128 main_cst_0
  let main_v6 : IVec S50257x128 1 := cmpf .olt main_v4 main_v5
  let main_c_1 : IVec S_ 1 := constantI S_ 1 1#1
  let main_v7 : IVec S_ 1 := (fun x v => Host.reduce IntOp.andi x v reducesTo_S50257x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x128x50257 : Shape := ⟨3, ![16, 128, 50257]⟩
abbrev S50257x128 : Shape := ⟨2, ![50257, 128]⟩
abbrev S128 : Shape := ⟨1, ![128]⟩
abbrev S2048x50257 : Shape := ⟨2, ![2048, 50257]⟩
abbrev S1x128 : Shape := ⟨2, ![1, 128]⟩
abbrev S2048x128 : Shape := ⟨2, ![2048, 128]⟩
abbrev S32x50257 : Shape := ⟨2, ![32, 50257]⟩
abbrev S32x128 : Shape := ⟨2, ![32, 128]⟩
abbrev S16x128x128 : Shape := ⟨3, ![16, 128, 128]⟩

abbrev nBuf : Space → Nat
  | .hbm => 8
  | .vmem => 6
  | .smem => 0
  | _ => 0

abbrev bufTy : (tb : Table) → Fin (tcTables nBuf tb) → BufTy
  | .hbm, ⟨0, _⟩ => ⟨S16x128x50257, .f32⟩
  | .hbm, ⟨1, _⟩ => ⟨S50257x128, .f32⟩
  | .hbm, ⟨2, _⟩ => ⟨S128, .f32⟩
  | .hbm, ⟨3, _⟩ => ⟨S2048x50257, .f32⟩
  | .hbm, ⟨4, _⟩ => ⟨S50257x128, .bf16⟩
  | .hbm, ⟨5, _⟩ => ⟨S1x128, .f32⟩
  | .hbm, ⟨6, _⟩ => ⟨S2048x128, .f32⟩
  | .hbm, ⟨7, _⟩ => ⟨S16x128x128, .f32⟩
  | .local _ .vmem, ⟨0, _⟩ => ⟨S32x50257, .f32⟩
  | .local _ .vmem, ⟨1, _⟩ => ⟨S32x50257, .f32⟩
  | .local _ .vmem, ⟨2, _⟩ => ⟨S50257x128, .bf16⟩
  | .local _ .vmem, ⟨3, _⟩ => ⟨S1x128, .f32⟩
  | .local _ .vmem, ⟨4, _⟩ => ⟨S32x128, .f32⟩
  | .local _ .vmem, ⟨5, _⟩ => ⟨S32x128, .f32⟩
  | _, _ => ⟨S16x128x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50257x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x128x50257_S2048x50257 : S16x128x50257.ShapeCasts S2048x50257
  bitsLt_bf16_f32 : FTy.bits .bf16 < FTy.bits .f32
  shapeCasts_S128_S1x128 : S128.ShapeCasts S1x128
  inb_S32x50257_S32x50257_0_0 : ∀ a, (![0, 0] : Fin 2 → Nat) a + S32x50257.size a ≤ S32x50257.size a
  h_S32x50257 : 0 < S32x50257.numel
  shapeCasts_S32x50257_S32x50257 : S32x50257.ShapeCasts S32x50257
  inb_S50257x128_S50257x128_0_0 : ∀ a, (![0, 0] : Fin 2 → Nat) a + S50257x128.size a ≤ S50257x128.size a
  h_S50257x128 : 0 < S50257x128.numel
  shapeCasts_S50257x128_S50257x128 : S50257x128.ShapeCasts S50257x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  shapeCasts_S2048x128_S16x128x128 : S2048x128.ShapeCasts S16x128x128
  dot_S32x50257_S50257x128_S32x128_1_0_0_1_n_n_wf : DotDims.WF S32x50257 S50257x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S2048x50257.size a
  hwx0_0 : ∀ i : grid0.Coords, EltTy.bits .f32 = 32 ∨ (Rect.block (s := S2048x50257) S32x50257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50257x128.size a ≤ S50257x128.size a
  hwx0_1 : ∀ i : grid0.Coords, EltTy.bits .bf16 = 32 ∨ (Rect.block (s := S50257x128) S50257x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S2048x128.size a
  hwx0_3 : ∀ i : grid0.Coords, EltTy.bits .f32 = 32 ∨ (Rect.block (s := S2048x128) S32x128.size (cc0_transform_3 i) (hinb0_3 i)).WholeWords (EltTy.packing .f32)

variable [Facts₀]

def dot_S32x50257_S50257x128_S32x128_1_0_0_1_n_n : DotDims S32x50257 S50257x128 S32x128 where
  lhsContracting := [1]
  rhsContracting := [0]
  lhsNonContracting := [0]
  rhsNonContracting := [1]
  lhsBatch := []
  rhsBatch := []
  wf := dot_S32x50257_S50257x128_S32x128_1_0_0_1_n_n_wf

abbrev win0_0 : Pipeline.Window sig grid0 :=
  Pipeline.Window.ofSpec (Memref.whole main_v0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S50257x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x50257 : Shape := ⟨3, ![16, 128, 50257]⟩
abbrev S50257x128 : Shape := ⟨2, ![50257, 128]⟩
abbrev S128 : Shape := ⟨1, ![128]⟩
abbrev S16x128x128 : Shape := ⟨3, ![16, 128, 128]⟩
abbrev S1x1x128 : Shape := ⟨3, ![1, 1, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x128x50257, .f32⟩
  | .hbm, ⟨1, _⟩ => ⟨S50257x128, .f32⟩
  | .hbm, ⟨2, _⟩ => ⟨S128, .f32⟩
  | .hbm, ⟨3, _⟩ => ⟨S16x128x128, .f32⟩
  | .hbm, ⟨4, _⟩ => ⟨S1x1x128, .f32⟩
  | .hbm, ⟨5, _⟩ => ⟨S16x128x128, .f32⟩
  | .hbm, ⟨6, _⟩ => ⟨S16x128x128, .f32⟩
  | _, _ => ⟨S16x128x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x128x128_0_1_2 : S1x1x128.BroadcastsInDim S16x128x128 (![0, 1, 2] : Fin 3 → Fin S16x128x128.rank)
  dot_S16x128x50257_S50257x128_S16x128x128_2_0_01_1_n_n_wf : DotDims.WF S16x128x50257 S50257x128 S16x128x128 [2] [0] [0, 1] [1] [] []

variable [Facts₀]

def dot_S16x128x50257_S50257x128_S16x128x128_2_0_01_1_n_n : DotDims S16x128x50257 S50257x128 S16x128x128 where
  lhsContracting := [2]
  rhsContracting := [0]
  lhsNonContracting := [0, 1]
  rhsNonContracting := [1]
  lhsBatch := []
  rhsBatch := []
  wf := dot_S16x128x50257_S50257x128_S16x128x128_2_0_01_1_n_n_wf

class Facts : Prop extends Facts₀ where

variable [Facts]
-- ==== Proof.Spec.lean ====
/-
  The function both programs compute, over the extended reals.

  For an input `x` (16 × 128 × 50257), weights `w` (50257 × 128) and a bias `b` (128) the result at
  `(s, t, e)` is

      (∑ k < 50257, x[s, t, k] * w[k, e]) + b[e].

  `rows` is the same function with the two leading axes merged into one of 2048 rows, stated over a
  2048 × 50257 matrix `X`, the weights and the bias as a 1 × 128 row `r`:

      rows X w r [j, e] = (∑ k < 50257, X[j, k] * w[k, e]) + r[0, e].

  Row `j = 128 s + t` of the merged matrix is row `(s, t)` of the input, so `rows` read at `(128 s + t, e)` is
  `result` read at `(s, t, e)` (`rows_merged`).
-/
import Idealize.ShloMosaic.PureOps.Ideal
import Idealize.ShloMosaic.Lib.ValueIdx

noncomputable section

namespace Cert.Embed

open Idealize.ShloMosaic Idealize.ShloMosaic.ValueIdx

/-- `x · w + b` along the last axis of `x`. -/
def result (x : (⟨3, ![16, 128, 50257]⟩ : Shape).Idx → EReal) (w : (⟨2, ![50257, 128]⟩ : Shape).Idx → EReal)
    (b : (⟨1, ![128]⟩ : Shape).Idx → EReal) : (⟨3, ![16, 128, 128]⟩ : Shape).Idx → EReal :=
  fun i => (∑ k : Fin 50257, x (ix3 (i 0) (i 1) k) * w (ix2 k (i 2))) + b (ix1 (i 2))

/-- The same over 2048 merged rows, the bias given as a one-row matrix. -/
def rows (X : (⟨2, ![2048, 50257]⟩ : Shape).Idx → EReal) (w : (⟨2, ![50257, 128]⟩ : Shape).Idx → EReal)
    (r : (⟨2, ![1, 128]⟩ : Shape).Idx → EReal) : (⟨2, ![2048, 128]⟩ : Shape).Idx → EReal :=
  fun j => (∑ k : Fin 50257, X (ix2 (j 0) k) * w (ix2 k (j 1))) + r (ix2 (0 : Fin 1) (j 1))

/-- If row `j` of `X` is row `(s, t)` of `x` and the one row of `r` is `b`, then `rows` at `(j, e)` is
    `result` at `(s, t, e)`. -/
theorem rows_merged (x : (⟨3, ![16, 128, 50257]⟩ : Shape).Idx → EReal) (w : (⟨2, ![50257, 128]⟩ : Shape).Idx → EReal)
    (b : (⟨1, ![128]⟩ : Shape).Idx → EReal) (X : (⟨2, ![2048, 50257]⟩ : Shape).Idx → EReal)
    (r : (⟨2, ![1, 128]⟩ : Shape).Idx → EReal) (j : Fin 2048) (s : Fin 16) (t : Fin 128) (e : Fin 128)
    (hX : ∀ k : Fin 50257, X (ix2 j k) = x (ix3 s t k)) (hr : r (ix2 (0 : Fin 1) e) = b (ix1 e)) :
    rows X w r (ix2 j e) = result x w b (ix3 s t e) := by
  show (∑ k : Fin 50257, X (ix2 j k) * w (ix2 k e)) + r (ix2 (0 : Fin 1) e)
    = (∑ k : Fin 50257, x (ix3 s t k) * w (ix2 k e)) + b (ix1 e)
  rw [hr]
  exact congrArg (· + b (ix1 e)) (Finset.sum_congr rfl fun k _ => by rw [hX k])

end Cert.Embed

end
-- ==== Proof.Reference.lean ====
/-
  The reference computes `Cert.Embed.result`.

  The reference contracts the last axis of the input with the first axis of the weights, broadcasts the bias
  over the two leading axes and adds. Read at an entry `(s, t, e)`, the contraction is
  `∑ k, x[s, t, k] * w[k, e]` and the broadcast bias is `b[e]`.
-/
import proofs.«108956_j39376260170350_1_alg».proof.Proof.Gen.ReferenceIdeal.Read
import proofs.«108956_j39376260170350_1_alg».proof.Proof.Spec

noncomputable section

namespace Cert.ReferenceIdeal.Embed

open Idealize.ShloMosaic Idealize.ShloMosaic.ValueIdx Cert.ReferenceIdeal Cert.ReferenceIdeal.Read

/-- The left operand of the contraction at `(i, k)` is the input at `(i₀, i₁, k)`. -/
theorem lidx_eq (i : S16x128x128.Idx) (k : Fin 50257) : lidx_main_v0 i k = ix3 (i 0) (i 1) k :=
  funext fun a => Fin.ext (by match a with | ⟨0, _⟩ => rfl | ⟨1, _⟩ => rfl | ⟨2, _⟩ => rfl)

/-- The right operand at `(i, k)` is the weights at `(k, i₂)`. -/
theorem ridx_eq (i : S16x128x128.Idx) (k : Fin 50257) : ridx_main_v0 i k = ix2 k (i 2) :=
  funext fun a => Fin.ext (by match a with | ⟨0, _⟩ => rfl | ⟨1, _⟩ => rfl)

/-- The broadcast bias at `i` is the bias at `i₂`. -/
theorem bidx_eq (i : S16x128x128.Idx) : idx_main_v1 (idx_main_v2 i) = ix1 (i 2) :=
  funext fun a => Fin.ext (by match a with | ⟨0, _⟩ => rfl)

/-- The reference's result as a function of its three arguments is `result`. -/
theorem value_eq (x : (⟨S16x128x50257, .f32⟩ : BufTy).Contents (Elt Ideal)) (w : (⟨S50257x128, .f32⟩ : BufTy).Contents (Elt Ideal))
    (b : (⟨S128, .f32⟩ : BufTy).Contents (Elt Ideal)) :
    val_main_v3 (F := Ideal) x w b = Cert.Embed.result x w b := by
  funext i
  rw [val_main_v3_apply, val_main_v0_apply, val_main_v2_apply, val_main_v1_apply]
  simp only [lidx_eq, ridx_eq, bidx_eq]
  rfl

end Cert.ReferenceIdeal.Embed

end
-- ==== Proof.BlockEntry.lean ====
/-
  One grid step of the kernel, read at a single entry.

  A grid step holds a slab `a` of 32 rows of the flattened input (32 × 50257), the whole weight matrix `w`
  (50257 × 128, rounded to bf16 on the way in) and the bias as one row `r` (1 × 128). It stores
  `a · w + r` (the row `r` repeated down the 32 rows). Over the extended reals a change of float format is
  the identity and the matrix product into a zero accumulator is the plain sum, so entry `(p, q)` of what
  the step stores is

      (∑ k < 50257, a[p, k] * w[k, q]) + r[0, q].

  The sum is taken over the product's own contraction index and then re-indexed to `Fin 50257` through the
  bijection between a one-axis contraction index and its single coordinate.
-/
import proofs.«108956_j39376260170350_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Embed

open Idealize.ShloMosaic Idealize.ShloMosaic.ValueIdx Cert.KernelIdeal Cert.KernelIdeal.Gen

/-- The left operand is read at the output's row: axis 0 of the slab is the product's free row axis. -/
theorem lhs_row (i : S32x128.Idx) (q : dot_S32x50257_S50257x128_S32x128_1_0_0_1_n_n.contr.Idx) :
    (dot_S32x50257_S50257x128_S32x128_1_0_0_1_n_n.lhsIdx i q 0).val = (i 0).val := by
  unfold DotDims.lhsIdx
  rw [dif_neg (show ¬(0 : Fin S32x50257.rank) ∈ dot_S32x50257_S50257x128_S32x128_1_0_0_1_n_n.lhsBatch by decide), dif_pos (show (0 : Fin S32x50257.rank) ∈ dot_S32x50257_S50257x128_S32x128_1_0_0_1_n_n.lhsNonContracting by decide)]
  rfl

/-- Axis 1 of the slab is the contracted one: the left operand is read at the summation position. -/
theorem lhs_contr (i : S32x128.Idx) (q : dot_S32x50257_S50257x128_S32x128_1_0_0_1_n_n.contr.Idx) :
    (dot_S32x50257_S50257x128_S32x128_1_0_0_1_n_n.lhsIdx i q 1).val = (q ⟨0, by decide⟩).val :=
  dot_S32x50257_S50257x128_S32x128_1_0_0_1_n_n.lhsIdx_val_of_single rfl i q

/-- Axis 0 of the weights is the contracted one. -/
theorem rhs_contr (i : S32x128.Idx) (q : dot_S32x50257_S50257x128_S32x128_1_0_0_1_n_n.contr.Idx) :
    (dot_S32x50257_S50257x128_S32x128_1_0_0_1_n_n.rhsIdx i q 0).val = (q ⟨0, by decide⟩).val :=
  dot_S32x50257_S50257x128_S32x128_1_0_0_1_n_n.rhsIdx_val_of_single rfl i q

/-- The right operand is read at the output's column: axis 1 of the weights is the product's free column axis. -/
theorem rhs_col (i : S32x128.Idx) (q : dot_S32x50257_S50257x128_S32x128_1_0_0_1_n_n.contr.Idx) :
    (dot_S32x50257_S50257x128_S32x128_1_0_0_1_n_n.rhsIdx i q 1).val = (i 1).val := by
  unfold DotDims.rhsIdx
  rw [dif_neg (show ¬(1 : Fin S50257x128.rank) ∈ dot_S32x50257_S50257x128_S32x128_1_0_0_1_n_n.rhsBatch by decide), dif_pos (show (1 : Fin S50257x128.rank) ∈ dot_S32x50257_S50257x128_S32x128_1_0_0_1_n_n.rhsNonContracting by decide)]
  rfl

/-- The slab-by-weights product into the zero accumulator, at entry `(p, q)`, is `∑ k, a[p, k] * w[k, q]`. -/
theorem product_entry (a : FVec Ideal S32x50257 .bf16) (w : FVec Ideal S50257x128 .bf16) (p : Fin 32) (q : Fin 128) :
    matmul (F := Ideal) dot_S32x50257_S50257x128_S32x128_1_0_0_1_n_n none a w (constant S32x128 .f32 0x00000000#32) (ix2 p q)
      = ∑ k : Fin 50257, a (ix2 p k) * w (ix2 k q) := by
  show FloatOps.matmul _ _ _ _ _ _ = _
  rw [Ideal.matmul_constant_zero_apply, ← Equiv.sum_comp (ValueIdx.contrEquiv1 dot_S32x50257_S50257x128_S32x128_1_0_0_1_n_n 50257 rfl rfl).symm]
  refine Finset.sum_congr rfl fun k _ => ?_
  have hk := ValueIdx.contrEquiv1_symm_val dot_S32x50257_S50257x128_S32x128_1_0_0_1_n_n 50257 rfl rfl k
  have el : dot_S32x50257_S50257x128_S32x128_1_0_0_1_n_n.lhsIdx (ix2 p q) ((ValueIdx.contrEquiv1 dot_S32x50257_S50257x128_S32x128_1_0_0_1_n_n 50257 rfl rfl).symm k) = ix2 p k := funext fun ax => Fin.ext (by
    match ax with
    | ⟨0, _⟩ => exact lhs_row _ _
    | ⟨1, _⟩ => exact (lhs_contr _ _).trans hk)
  have er : dot_S32x50257_S50257x128_S32x128_1_0_0_1_n_n.rhsIdx (ix2 p q) ((ValueIdx.contrEquiv1 dot_S32x50257_S50257x128_S32x128_1_0_0_1_n_n 50257 rfl rfl).symm k) = ix2 k q := funext fun ax => Fin.ext (by
    match ax with
    | ⟨0, _⟩ => exact (rhs_contr _ _).trans hk
    | ⟨1, _⟩ => exact rhs_col _ _)
  rw [el, er]

/-- What one grid step stores, at entry `(p, q)`: the row of the slab against the column of the weights, plus
    the bias at that column. -/
theorem stored_entry (a : Vec Ideal S32x50257 .f32) (w : Vec Ideal S50257x128 .bf16) (r : Vec Ideal S1x128 .f32)
    (p : Fin 32) (q : Fin 128) :
    k0_pay1 (F := Ideal) a w r (ix2 p q) = (∑ k : Fin 50257, a (ix2 p k) * w (ix2 k q)) + r (ix2 (0 : Fin 1) q) := by
  unfold k0_pay1
  rw [addf_apply, product_entry, shapeCast_self, shapeCast_self, shapeCast_self, broadcastTo_1b_ab_apply]
  rfl

end Cert.KernelIdeal.Embed

end
-- ==== Proof.Blocks.lean ====
/-
  From the grid steps to the whole intermediate matrix.

  The kernel's grid has 64 steps. Step `t` sees rows `32 t … 32 t + 31` of the merged input matrix `X`
  (2048 × 50257), the whole weight matrix and the whole one-row bias, and writes rows `32 t … 32 t + 31` of the
  2048 × 128 output. By `stored_entry` what it writes at `(p, q)` is `Cert.Embed.rows X w r` at `(32 t + p, q)`.
  The 64 row blocks tile the 2048 rows (row `j` lies in block `j / 32`), so after the last step the output
  matrix is `Cert.Embed.rows X w r` everywhere.
-/
import proofs.«108956_j39376260170350_1_alg».proof.Proof.Gen.KernelIdeal.Frame
import proofs.«108956_j39376260170350_1_alg».proof.Proof.BlockEntry
import proofs.«108956_j39376260170350_1_alg».proof.Proof.Spec

set_option maxRecDepth 16384

noncomputable section

namespace Cert.KernelIdeal.Embed

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- Where each window's block sits at step `t`: the input slab and the output block are block row `t`; the weights
    and the bias are always their one whole block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row is some step's. -/
theorem block_row_onto : ∀ q : Fin 64, ∃ t : Fin cfg0.N, t.val = q.val :=
  (by decide +kernel : ∀ q : Fin 64, ∃ t : Fin grid0.N, t.val = q.val)

/-- What a step stores is `rows` of any matrices its three blocks are read from: if the slab is rows
    `32 n …` of `X`, and the weights and bias blocks are `w` and `r` themselves, then the stored entry `j` is
    `rows X w r` at the entry `32 n` rows further down. -/
theorem stored_is_rows (a : Vec Ideal S32x50257 .f32) (wb : Vec Ideal S50257x128 .bf16) (rb : Vec Ideal S1x128 .f32)
    (X : S2048x50257.Idx → EReal) (w : S50257x128.Idx → EReal) (r : S1x128.Idx → EReal) (n : Nat)
    (ha : ∀ (p : Fin 32) (k : Fin 50257) (i : S2048x50257.Idx), (i 0).val = 32 * n + p.val → (i 1).val = k.val → a (ix2 p k) = X i)
    (hw : ∀ (k : Fin 50257) (q : Fin 128), wb (ix2 k q) = w (ix2 k q))
    (hr : ∀ q : Fin 128, rb (ix2 (0 : Fin 1) q) = r (ix2 (0 : Fin 1) q))
    (j : S32x128.Idx) (i : S2048x128.Idx) (hi0 : (i 0).val = 32 * n + (j 0).val) (hi1 : (i 1).val = (j 1).val) :
    k0_pay1 (F := Ideal) a wb rb j = Cert.Embed.rows X w r i := by
  obtain ⟨p, q, rfl⟩ : ∃ (p : Fin 32) (q : Fin 128), j = ix2 p q := ⟨j 0, j 1, eq_ix2 j⟩
  rw [stored_entry]
  show _ = (∑ k : Fin 50257, X (ix2 (i 0) k) * w (ix2 k (i 1))) + r (ix2 (0 : Fin 1) (i 1))
  have e1 : i 1 = q := Fin.ext hi1
  rw [e1, hr q]
  refine congrArg (· + r (ix2 (0 : Fin 1) q)) (Finset.sum_congr rfl fun k _ => ?_)
  rw [ha p k (ix2 (i 0) k) hi0 rfl, hw k q]

/-- The slab at step `t` is rows `32 t …` of the merged matrix as the kernel finds it. -/
theorem slab_entry (c : Dev nD) (t : Fin cfg0.N) (p : Fin 32) (k : Fin 50257) (i : S2048x50257.Idx)
    (hi0 : (i 0).val = 32 * t.val + p.val) (hi1 : (i 1).val = k.val) :
    (iblk m c 0 t : Vec Ideal S32x50257 .f32) (ix2 p k) = (V m c main_v0 : S2048x50257.Idx → EReal) i := by
  obtain ⟨e0, e1, -⟩ := block_indices t
  show V m c main_v0 (((cfg0.win 0).blk t).view.emb (ix2 p k)) = V m c main_v0 i
  congr 1
  funext a; apply Fin.ext
  match a with
  | ⟨0, _⟩ => show win0_0.index t (0 : Fin 2) * 32 + 1 * p.val = (i 0).val; omega
  | ⟨1, _⟩ => show win0_0.index t (1 : Fin 2) * 50257 + 1 * k.val = (i 1).val; omega

/-- The weights block at any step is the whole (rounded) weight matrix as the kernel finds it. -/
theorem weights_entry (c : Dev nD) (t : Fin cfg0.N) (k : Fin 50257) (q : Fin 128) :
    (iblk m c 1 t : Vec Ideal S50257x128 .bf16) (ix2 k q) = (V m c main_v1 : S50257x128.Idx → EReal) (ix2 k q) := by
  obtain ⟨-, -, e0, e1, -⟩ := block_indices t
  show V m c main_v1 (((cfg0.win 1).blk t).view.emb (ix2 k q)) = V m c main_v1 (ix2 k q)
  congr 1
  funext a; apply Fin.ext
  match a with
  | ⟨0, _⟩ => show win0_1.index t (0 : Fin 2) * 50257 + 1 * k.val = k.val; omega
  | ⟨1, _⟩ => show win0_1.index t (1 : Fin 2) * 128 + 1 * q.val = q.val; omega

/-- The bias block at any step is the whole one-row bias as the kernel finds it. -/
theorem bias_entry (c : Dev nD) (t : Fin cfg0.N) (q : Fin 128) :
    (iblk m c 2 t : Vec Ideal S1x128 .f32) (ix2 (0 : Fin 1) q) = (V m c main_v2 : S1x128.Idx → EReal) (ix2 (0 : Fin 1) q) := by
  obtain ⟨-, -, -, -, e0, e1, -⟩ := block_indices t
  show V m c main_v2 (((cfg0.win 2).blk t).view.emb (ix2 (0 : Fin 1) q)) = V m c main_v2 (ix2 (0 : Fin 1) q)
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- What step `t` writes back is its block of `rows` of the three matrices as the kernel finds them. -/
theorem flushed_eq (c : Dev nD) (t : Fin cfg0.N) :
    (dats m 0 c).flushed 3 t
      = ((cfg0.win 3).blk t).view.read (Elt Ideal) (Cert.Embed.rows (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S32x50257) zero_offsets, View.ld_unit_zero (S := S50257x128) zero_offsets,
    View.ld_unit_zero (S := S1x128) zero_offsets]
  obtain ⟨-, -, -, -, -, -, e0, e1⟩ := block_indices t
  funext j
  refine stored_is_rows (iblk m c 0 t) (iblk m c 1 t) (iblk m c 2 t) (V m c main_v0) (V m c main_v1) (V m c main_v2) t.val
    (fun p k i h0 h1 => slab_entry m c t p k i h0 h1) (fun k q => weights_entry m c t k q) (fun q => bias_entry m c t q)
    j (((cfg0.win 3).blk t).view.emb j) ?_ ?_
  · show win0_3.index t (0 : Fin 2) * 32 + 1 * (j 0).val = 32 * t.val + (j 0).val; omega
  · show win0_3.index t (1 : Fin 2) * 128 + 1 * (j 1).val = (j 1).val; omega

/-- An entry of the output matrix is in step `t`'s block iff each coordinate is in the block's range. -/
theorem mem_block (t : Fin cfg0.N) (i : S2048x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v3).slice (win0_3.rect t)).set ↔ _
  rw [View.set_slice_whole, Rect.mem_set_unit]
  exact Iff.rfl

/-- Every entry of the output matrix is in the block of step `row / 32`. -/
theorem covered (i : S2048x128.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  obtain ⟨t, ht⟩ := block_row_onto ⟨(i 0).val / 32, by omega⟩
  have ht' : t.val = (i 0).val / 32 := ht
  obtain ⟨-, -, -, -, -, -, e0, e1⟩ := block_indices t
  refine ⟨t, flush0_3 t, ?_⟩
  rw [mem_block]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 128 ≤ (i 1).val ∧ (i 1).val < win0_3.index t (1 : Fin 2) * 128 + 128; omega

/-- After the last step the output matrix is `rows` of the three matrices as the kernel finds them. -/
theorem output_matrix (c : Dev nD) :
    (dats m 0 c).arrAt 3 cfg0.N = Cert.Embed.rows (V m c main_v0) (V m c main_v1) (V m c main_v2) :=
  (dats m 0 c).arrAt_eq_of_cover 3 _ (fun t _ => flushed_eq m c t) covered

end Cert.KernelIdeal.Embed

end
-- ==== Proof.KernelValue.lean ====
/-
  The kernel program's result is `Cert.Embed.result` of its arguments.

  Before the grid runs, the program merges the two leading axes of the input (16 × 128 × 50257 → 2048 × 50257),
  rounds the weights to bf16 (the identity over the extended reals) and turns the bias into a one-row matrix
  (128 → 1 × 128). After the grid it splits the 2048 rows of the output matrix back into 16 × 128.

  A merge or split of axes keeps an entry's position in row-major order, so entry `(128 s + t, k)` of the merged
  input is entry `(s, t, k)` of the input, and entry `(s, t, e)` of the split output is entry `(128 s + t, e)` of the
  output matrix. With `output_matrix` (the output matrix is `rows` of the merged input, the weights and the bias
  row) and `rows_merged` this gives the result entry by entry.
-/
import proofs.«108956_j39376260170350_1_alg».proof.Proof.Blocks
import Idealize.ShloMosaic.Lib.StableHlo.Run

noncomputable section

namespace Cert.KernelIdeal.Embed

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The matrix the grid reads its slabs from is the input with its two leading axes merged. -/
theorem merged_input (c : Dev nD) : (V m c main_v0 : S2048x50257.Idx → EReal)
    = shapeCast S2048x50257 (m ((c : Thread nD τ).loc main_arg0)) shapeCasts_S16x128x50257_S2048x50257 := by
  show StableHlo.after hostOps0 (fun b => m (c, b)) (Proc.devRef .tc main_v0) = _
  after_results
  rfl

/-- The weights the grid reads are the weight argument (rounding to bf16 is the identity on extended reals). -/
theorem rounded_weights (c : Dev nD) : (V m c main_v1 : S50257x128.Idx → EReal) = m ((c : Thread nD τ).loc main_arg1) := by
  have e : (V m c main_v1 : S50257x128.Idx → EReal) = truncf (F := Ideal) .bf16 (m ((c : Thread nD τ).loc main_arg1)) bitsLt_bf16_f32 := by
    show StableHlo.after hostOps0 (fun b => m (c, b)) (Proc.devRef .tc main_v1) = _
    after_results
  exact e

/-- The one-row matrix the grid reads is the bias with a unit axis in front. -/
theorem bias_row (c : Dev nD) : (V m c main_v2 : S1x128.Idx → EReal)
    = shapeCast S1x128 (m ((c : Thread nD τ).loc main_arg2)) shapeCasts_S128_S1x128 := by
  show StableHlo.after hostOps0 (fun b => m (c, b)) (Proc.devRef .tc main_v2) = _
  after_results
  rfl

/-- The program's result is the output matrix after the grid with its rows split into 16 × 128. -/
theorem split_output (c : Dev nD) : Pipeline.afterTail₀ cfgs (dats m) 0 (V0 m) [hostOps1] c main_v4
    = shapeCast S16x128x128 ((dats m 0 c).arrAt 3 cfg0.N) shapeCasts_S2048x128_S16x128x128 := by
  unfold Pipeline.afterTail₀
  show StableHlo.after hostOps1 _ (Proc.devRef .tc main_v4) = _
  after_results
  exact congrArg (fun A : S2048x128.Idx → EReal => shapeCast S16x128x128 A shapeCasts_S2048x128_S16x128x128)
    (Pipeline.withArrays_arr spec0 launch0.win.arr_inj c (V0 m c) (fun w => (dats m 0 c).arrAt w cfg0.N) 3)

/-- Entry `(j, k)` of the merged input, for `j = 128 s + t`, is entry `(s, t, k)` of the input. -/
theorem merged_entry (x : S16x128x50257.Idx → EReal) (j : Fin 2048) (s : Fin 16) (t : Fin 128) (k : Fin 50257)
    (hj : j.val = 128 * s.val + t.val) :
    shapeCast S2048x50257 x shapeCasts_S16x128x50257_S2048x50257 (ix2 j k) = x (ix3 s t k) :=
  shapeCast_apply x _ _ _ (by
    rw [Shape.rowMajor_val_three, Shape.rowMajor_val_two]
    show (s.val * 128 + t.val) * 50257 + k.val = j.val * 50257 + k.val
    rw [hj, Nat.mul_comm 128 s.val])

/-- Entry `(s, t, e)` of a 2048 × 128 matrix split into 16 × 128 × 128 is its entry `(128 s + t, e)`. -/
theorem split_entry (A : S2048x128.Idx → EReal) (j : Fin 2048) (s : Fin 16) (t : Fin 128) (e : Fin 128)
    (hj : j.val = 128 * s.val + t.val) :
    shapeCast S16x128x128 A shapeCasts_S2048x128_S16x128x128 (ix3 s t e) = A (ix2 j e) :=
  shapeCast_apply A _ _ _ (by
    rw [Shape.rowMajor_val_three, Shape.rowMajor_val_two]
    show j.val * 128 + e.val = (s.val * 128 + t.val) * 128 + e.val
    rw [hj, Nat.mul_comm 128 s.val])

/-- The kernel program's result array is `result` of its three arguments. -/
theorem result_eq (c : Dev nD) : Pipeline.afterTail₀ cfgs (dats m) 0 (V0 m) [hostOps1] c main_v4
    = Cert.Embed.result (m ((c : Thread nD τ).loc main_arg0)) (m ((c : Thread nD τ).loc main_arg1)) (m ((c : Thread nD τ).loc main_arg2)) := by
  rw [split_output, output_matrix, rounded_weights, merged_input, bias_row]
  funext i
  obtain ⟨s, t, e, rfl⟩ : ∃ (s : Fin 16) (t : Fin 128) (e : Fin 128), i = ix3 s t e := ⟨i 0, i 1, i 2, eq_ix3 i⟩
  have hlt : 128 * s.val + t.val < 2048 := by have := s.isLt; have := t.isLt; omega
  rw [split_entry _ ⟨128 * s.val + t.val, hlt⟩ s t e rfl]
  exact Cert.Embed.rows_merged _ _ _ _ _ ⟨128 * s.val + t.val, hlt⟩ s t e
    (fun k => merged_entry _ ⟨128 * s.val + t.val, hlt⟩ s t k rfl)
    (shapeCast_a_1a_apply _ _ (0 : Fin 1) e)

/-- Every weakly fair execution of the kernel program terminates with its result at `result` of the arguments and the
    arguments unchanged. -/
theorem run : θ_run defs (onTc (τ := τ) (main (F := Ideal))) ⟨m, fun _ => 0, ρ⟩ fun r => ∀ c : Dev nD,
      r.2.mem ((c.tc : Thread nD τ).loc main_v4)
        = Cert.Embed.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Embed

end
-- ==== Proof.lean ====
/-
  The certificate: a tiled kernel computing `x · w + b` along the last axis of `x` (16 × 128 × 50257 against
  50257 × 128, bias 128) agrees over the extended reals with the reference's `einsum("btv,ve->bte") + b`.

  Both programs compute `Cert.Embed.result`:

      result x w b [s, t, e] = (∑ k < 50257, x[s, t, k] * w[k, e]) + b[e].

  * The kernel merges the two leading axes of `x`, walks the 2048 merged rows in 64 blocks of 32, multiplies
    each block by the whole weight matrix (rounded to bf16, the identity over the extended reals), adds the bias
    row, and splits the rows back (`Cert.KernelIdeal.Embed.run`).
  * The reference contracts, broadcasts the bias and adds (`Cert.ReferenceIdeal.Embed.value_eq` over its run).

  The two sums have the same terms in the same order, so no finiteness of the inputs is used. The three frames are
  the programs' runs with the result dropped; the idealization rewrote nothing, so `preserves` is trivial.
-/
import proofs.«108956_j39376260170350_1_alg».proof.Defs
import proofs.«108956_j39376260170350_1_alg».proof.Proof.Gen.Kernel
import proofs.«108956_j39376260170350_1_alg».proof.Proof.Gen.Kernel.Skeleton
import proofs.«108956_j39376260170350_1_alg».proof.Proof.Gen.Kernel.Launch
import proofs.«108956_j39376260170350_1_alg».proof.Proof.Gen.Kernel.Points
import proofs.«108956_j39376260170350_1_alg».proof.Proof.Gen.Kernel.Frame
import proofs.«108956_j39376260170350_1_alg».proof.Proof.Gen.KernelIdeal
import proofs.«108956_j39376260170350_1_alg».proof.Proof.Gen.KernelIdeal.Skeleton
import proofs.«108956_j39376260170350_1_alg».proof.Proof.Gen.KernelIdeal.Launch
import proofs.«108956_j39376260170350_1_alg».proof.Proof.Gen.KernelIdeal.Points
import proofs.«108956_j39376260170350_1_alg».proof.Proof.Gen.KernelIdeal.Frame
import proofs.«108956_j39376260170350_1_alg».proof.Proof.Gen.ReferenceIdeal
import proofs.«108956_j39376260170350_1_alg».proof.Proof.Gen.Pre_finite_inputs
import proofs.«108956_j39376260170350_1_alg».proof.Proof.Gen.ReferenceIdeal.Run
import proofs.«108956_j39376260170350_1_alg».proof.Proof.Gen.ReferenceIdeal.Read
import proofs.«108956_j39376260170350_1_alg».proof.Proof.Spec
import proofs.«108956_j39376260170350_1_alg».proof.Proof.Reference
import proofs.«108956_j39376260170350_1_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with their result at
    `(∑ k, x[s, t, k] * w[k, e]) + b[e]` of those arguments. -/
theorem algebraic : Cert.algebraic_KernelIdeal_ReferenceIdeal := by
  intro m ρ m' ρ' _ hagree
  refine ⟨fun c => Cert.Embed.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Embed.value_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
